-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S4096x256 : Shape := ⟨2, ![4096, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_

variable [Facts]

def fn {F : FTy → Type} [FloatOps F] (main_arg0 : FVec F S8192x256 .f32) (main_arg1 : FVec F S4096x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  main_v8
-- ==== Kernel.lean ====
abbrev S8192x256 : Shape := ⟨2, ![8192, 256]⟩
abbrev S4096x256 : Shape := ⟨2, ![4096, 256]⟩
abbrev S8192x4096 : Shape := ⟨2, ![8192, 4096]⟩
abbrev S512x256 : Shape := ⟨2, ![512, 256]⟩
abbrev S4096x512 : Shape := ⟨2, ![4096, 512]⟩
abbrev S4096 : Shape := ⟨1, ![4096]⟩
abbrev S4096x1 : Shape := ⟨2, ![4096, 1]⟩
abbrev S1x256 : Shape := ⟨2, ![1, 256]⟩
abbrev S1x512 : Shape := ⟨2, ![1, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S4096x256, .f32⟩
  | .hbm, ⟨2, _⟩ => ⟨S8192x4096, .f32⟩
  | .local _ .vmem, ⟨0, _⟩ => ⟨S4096x256, .f32⟩
  | .local _ .vmem, ⟨1, _⟩ => ⟨S4096x256, .f32⟩
  | .local _ .vmem, ⟨2, _⟩ => ⟨S512x256, .f32⟩
  | .local _ .vmem, ⟨3, _⟩ => ⟨S512x256, .f32⟩
  | .local _ .vmem, ⟨4, _⟩ => ⟨S4096x512, .f32⟩
  | .local _ .vmem, ⟨5, _⟩ => ⟨S4096x512, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S4096x256_S4096x256_0_0 : ∀ a, (![0, 0] : Fin 2 → Nat) a + S4096x256.size a ≤ S4096x256.size a
  h_S4096x256 : 0 < S4096x256.numel
  inb_S512x256_S512x256_0_0 : ∀ a, (![0, 0] : Fin 2 → Nat) a + S512x256.size a ≤ S512x256.size a
  h_S512x256 : 0 < S512x256.numel
  bitsLt_bf16_f32 : FTy.bits .bf16 < FTy.bits .f32
  reduces_S4096x256_S4096 : S4096x256.Reduces [1] S4096
  shapeCasts_S4096_S4096x1 : S4096.ShapeCasts S4096x1
  broadcasts_S4096x1_S4096x512 : S4096x1.Broadcasts S4096x512
  broadcasts_S1x512_S4096x512 : S1x512.Broadcasts S4096x512
  inb_S4096x512_S4096x512_0_0 : ∀ a, (![0, 0] : Fin 2 → Nat) a + S4096x512.size a ≤ S4096x512.size a
  h_S4096x512 : 0 < S4096x512.numel
  dot_S4096x256_S512x256_S4096x512_1_1_0_0_n_n_wf : DotDims.WF S4096x256 S512x256 S4096x512 [1] [1] [0] [0] [] []
  dot_S1x256_S512x256_S1x512_1_1_0_0_n_n_wf : DotDims.WF S1x256 S512x256 S1x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S8192x256.size a
  hwx0_0 : ∀ i : grid0.Coords, EltTy.bits .f32 = 32 ∨ (Rect.block (s := S8192x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S4096x256.size a
  hwx0_1 : ∀ i : grid0.Coords, EltTy.bits .f32 = 32 ∨ (Rect.block (s := S4096x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x512.size a ≤ S8192x4096.size a
  hwx0_2 : ∀ i : grid0.Coords, EltTy.bits .f32 = 32 ∨ (Rect.block (s := S8192x4096) S4096x512.size (cc0_transform_2 i) (hinb0_2 i)).WholeWords (EltTy.packing .f32)

variable [Facts₀]

def dot_S4096x256_S512x256_S4096x512_1_1_0_0_n_n : DotDims S4096x256 S512x256 S4096x512 where
  lhsContracting := [1]
  rhsContracting := [1]
  lhsNonContracting := [0]
  rhsNonContracting := [0]
  lhsBatch := []
  rhsBatch := []
  wf := dot_S4096x256_S512x256_S4096x512_1_1_0_0_n_n_wf
def dot_S1x256_S512x256_S1x512_1_1_0_0_n_n : DotDims S1x256 S512x256 S1x512 where
  lhsContracting := [1]
  rhsContracting := [1]
  lhsNonContracting := [0]
  rhsNonContracting := [0]
  lhsBatch := []
  rhsBatch := []
  wf := dot_S1x256_S512x256_S1x512_1_1_0_0_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4096x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x256 : Shape := ⟨2, ![8192, 256]⟩
abbrev S4096x256 : Shape := ⟨2, ![4096, 256]⟩
abbrev S_ : Shape := ⟨0, ![]⟩
abbrev S8192 : Shape := ⟨1, ![8192]⟩
abbrev S4096 : Shape := ⟨1, ![4096]⟩
abbrev S8192x4096 : Shape := ⟨2, ![8192, 4096]⟩
abbrev S8192x1 : Shape := ⟨2, ![8192, 1]⟩
abbrev S1x4096 : Shape := ⟨2, ![1, 4096]⟩

abbrev nBuf : Space → Nat
  | .hbm => 23
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S4096x256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192, .f32⟩
  | .hbm, ⟨6, _⟩ => ⟨S_, .f32⟩
  | .hbm, ⟨7, _⟩ => ⟨S8192, .f32⟩
  | .hbm, ⟨8, _⟩ => ⟨S8192, .f32⟩
  | .hbm, ⟨9, _⟩ => ⟨S4096x256, .f32⟩
  | .hbm, ⟨10, _⟩ => ⟨S_, .f32⟩
  | .hbm, ⟨11, _⟩ => ⟨S4096, .f32⟩
  | .hbm, ⟨12, _⟩ => ⟨S4096, .f32⟩
  | .hbm, ⟨13, _⟩ => ⟨S_, .f32⟩
  | .hbm, ⟨14, _⟩ => ⟨S4096, .f32⟩
  | .hbm, ⟨15, _⟩ => ⟨S4096, .f32⟩
  | .hbm, ⟨16, _⟩ => ⟨S8192x4096, .f32⟩
  | .hbm, ⟨17, _⟩ => ⟨S8192x1, .f32⟩
  | .hbm, ⟨18, _⟩ => ⟨S1x4096, .f32⟩
  | .hbm, ⟨19, _⟩ => ⟨S8192x4096, .f32⟩
  | .hbm, ⟨20, _⟩ => ⟨S8192x4096, .f32⟩
  | .hbm, ⟨21, _⟩ => ⟨S8192x4096, .f32⟩
  | .hbm, ⟨22, _⟩ => ⟨S8192x4096, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_call1_v0 : Ref sig .tc := ⟨.hbm, 9, rfl⟩
abbrev main_call1_cst : Ref sig .tc := ⟨.hbm, 10, rfl⟩
abbrev main_call1_v1 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S_S8192 : S_.BroadcastsInDim S8192 (![] : Fin 0 → Fin S8192.rank)
  reducesTo_S4096x256_S4096_d1 : S4096x256.ReducesTo [1] S4096
  bcast_S_S4096 : S_.BroadcastsInDim S4096 (![] : Fin 0 → Fin S4096.rank)
  bcast_S8192_S8192x1_0 : S8192.BroadcastsInDim S8192x1 (![0] : Fin 1 → Fin S8192x1.rank)
  bcast_S4096_S1x4096_1 : S4096.BroadcastsInDim S1x4096 (![1] : Fin 1 → Fin S1x4096.rank)
  bcast_S8192x1_S8192x4096_0_1 : S8192x1.BroadcastsInDim S8192x4096 (![0, 1] : Fin 2 → Fin S8192x4096.rank)
  bcast_S1x4096_S8192x4096_0_1 : S1x4096.BroadcastsInDim S8192x4096 (![0, 1] : Fin 2 → Fin S8192x4096.rank)
  dot_S8192x256_S4096x256_S8192x4096_1_1_0_0_n_n_wf : DotDims.WF S8192x256 S4096x256 S8192x4096 [1] [1] [0] [0] [] []

variable [Facts₀]

def dot_S8192x256_S4096x256_S8192x4096_1_1_0_0_n_n : DotDims S8192x256 S4096x256 S8192x4096 where
  lhsContracting := [1]
  rhsContracting := [1]
  lhsNonContracting := [0]
  rhsNonContracting := [0]
  lhsBatch := []
  rhsBatch := []
  wf := dot_S8192x256_S4096x256_S8192x4096_1_1_0_0_n_n_wf

class Facts : Prop extends Facts₀ where

variable [Facts]
-- ==== Proof.LibColumns.lean ====
/-
  Column vectors and row sums read at an index.

  A vector of length a viewed as a column [a, 1]; a column broadcast along its unit axis to [a, b]; and the sum of a
  matrix along its second axis, read at a row.  Each reads ONE entry (or one row) of its operand, named here by
  coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Columns

open Idealize.ShloMosaic Idealize.ShloMosaic.ValueIdx
open scoped BigOperators

variable {α : Type}

/-- A vector of length `a` viewed as a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an `[a, n]` matrix of extended reals along its second axis, started from the zero word and read at row
    `r`, is `∑ₖ v(r, k)`. -/
theorem multiReduction_add_row {a n : ℕ} (v : FVec Ideal ⟨2, ![a, n]⟩ .f32)
    (h : (⟨2, ![a, n]⟩ : Shape).Reduces [1] ⟨1, ![a]⟩) (hφ : FKind.Formats .f32)
    (hacc : (0x00000000#32 : BitVec 32) = 0x00000000#32) (r : Fin a) :
    multiReduction .add [1] ⟨1, ![a]⟩ v 0x00000000#32 h hφ hacc (ix1 r) = ∑ k : Fin n, v (ix2 r k) := by
  refine (Ideal.multiReduction_add_single v 0x00000000#32 h hφ hacc (ix1 r)).trans ?_
  refine Finset.sum_congr rfl fun k _ => ?_
  exact congrArg v (funext fun ax => Fin.ext (by match ax with | ⟨0, _⟩ => rfl | ⟨1, _⟩ => rfl))

end Cert.Columns

end
-- ==== Proof.CosineSpec.lean ====
/-
  Cosine similarity between the rows of two matrices, as one function of the two matrices.

  For x of shape [a, n] and s of shape [b, n] over the extended reals, entry (r, c) of the result is

      <x_r, s_c> / ( max(sqrt <x_r, x_r>, eps) * max(sqrt <s_c, s_c>, eps) ),

  where <u, v> is the sum over k of u_k * v_k and eps is the number the single-precision word 0x322BCC77 denotes.

  Entry (r, c) reads row r of x and row c of s and nothing else.  So it is unchanged when the two matrices are replaced
  by any others holding those two rows (`cosAt_congr`): a tile of the result is the same function of a tile of rows of
  each operand.
-/
import Idealize.ShloMosaic.Lib.ValueIdx
import Idealize.ShloMosaic.PureOps.Ideal

noncomputable section

namespace Cert.Cosine

open Idealize.ShloMosaic Idealize.ShloMosaic.ValueIdx
open scoped BigOperators

/-- The lower clamp of a norm: the extended real the word denotes. -/
abbrev eps : EReal := Ideal.ofBits .f32 0x322BCC77#32

/-- The inner product of row `r` of `x` with row `c` of `s`. -/
def rowDot {a b n : ℕ} (x : FVec Ideal ⟨2, ![a, n]⟩ .f32) (s : FVec Ideal ⟨2, ![b, n]⟩ .f32) (r : Fin a) (c : Fin b) : EReal :=
  ∑ k : Fin n, x (ix2 r k) * s (ix2 c k)

/-- The Euclidean norm of row `r`, clamped from below by `eps`. -/
def rowNorm {a n : ℕ} (v : FVec Ideal ⟨2, ![a, n]⟩ .f32) (r : Fin a) : EReal :=
  max (Ideal.sqrt (rowDot v v r r)) eps

/-- The cosine similarity of row `r` of `x` and row `c` of `s`. -/
def cosAt {a b n : ℕ} (x : FVec Ideal ⟨2, ![a, n]⟩ .f32) (s : FVec Ideal ⟨2, ![b, n]⟩ .f32) (r : Fin a) (c : Fin b) : EReal :=
  Ideal.div (rowDot x s r c) (rowNorm x r * rowNorm s c)

/-- The whole `[a, b]` array of similarities. -/
def cosSim {a b n : ℕ} (x : FVec Ideal ⟨2, ![a, n]⟩ .f32) (s : FVec Ideal ⟨2, ![b, n]⟩ .f32) : FVec Ideal ⟨2, ![a, b]⟩ .f32 :=
  fun i => cosAt x s (i 0) (i 1)

theorem cosSim_ix2 {a b n : ℕ} (x : FVec Ideal ⟨2, ![a, n]⟩ .f32) (s : FVec Ideal ⟨2, ![b, n]⟩ .f32) (r : Fin a) (c : Fin b) :
    cosSim x s (ix2 r c) = cosAt x s r c := rfl

/-- An inner product of two rows is the same for any two matrices holding those rows. -/
theorem rowDot_congr {a b a' b' n : ℕ} (x : FVec Ideal ⟨2, ![a, n]⟩ .f32) (s : FVec Ideal ⟨2, ![b, n]⟩ .f32)
    (x' : FVec Ideal ⟨2, ![a', n]⟩ .f32) (s' : FVec Ideal ⟨2, ![b', n]⟩ .f32) (r : Fin a) (c : Fin b) (r' : Fin a') (c' : Fin b')
    (hx : ∀ k : Fin n, x (ix2 r k) = x' (ix2 r' k)) (hs : ∀ k : Fin n, s (ix2 c k) = s' (ix2 c' k)) :
    rowDot x s r c = rowDot x' s' r' c' :=
  Finset.sum_congr rfl fun k _ => by rw [hx k, hs k]

/-- So is a clamped norm. -/
theorem rowNorm_congr {a a' n : ℕ} (v : FVec Ideal ⟨2, ![a, n]⟩ .f32) (v' : FVec Ideal ⟨2, ![a', n]⟩ .f32) (r : Fin a) (r' : Fin a')
    (hv : ∀ k : Fin n, v (ix2 r k) = v' (ix2 r' k)) : rowNorm v r = rowNorm v' r' := by
  unfold rowNorm
  rw [rowDot_congr v v v' v' r r r' r' hv hv]

/-- And so is a similarity: it reads one row of each operand. -/
theorem cosAt_congr {a b a' b' n : ℕ} (x : FVec Ideal ⟨2, ![a, n]⟩ .f32) (s : FVec Ideal ⟨2, ![b, n]⟩ .f32)
    (x' : FVec Ideal ⟨2, ![a', n]⟩ .f32) (s' : FVec Ideal ⟨2, ![b', n]⟩ .f32) (r : Fin a) (c : Fin b) (r' : Fin a') (c' : Fin b')
    (hx : ∀ k : Fin n, x (ix2 r k) = x' (ix2 r' k)) (hs : ∀ k : Fin n, s (ix2 c k) = s' (ix2 c' k)) :
    cosAt x s r c = cosAt x' s' r' c' := by
  unfold cosAt
  rw [rowDot_congr x s x' s' r c r' c' hx hs, rowNorm_congr x x' r r' hx, rowNorm_congr s s' c c' hs]

end Cert.Cosine

end
-- ==== Proof.TileValue.lean ====
/-
  One tile of the kernel's result, entry by entry.

  At a grid point the body loads a block `xb` of 4096 query rows and a block `sb` of 512 support rows (256 columns each)
  and stores a [4096, 512] tile.  Entry (p, q) of the tile is

      (sum_k xb(p,k) * sb(q,k)) / ( max(sqrt(sum_k xb(p,k)^2), eps) * max(sqrt(sum_k 1 * sb(q,k)^2), eps) ):

  the numerator is a matrix product contracting the column axis of both blocks (its operands pass through a narrower
  float format first, which changes nothing over the extended reals); the query norm is a sum along the columns kept as
  a [4096, 1] column and broadcast along the tile's rows; the support norm is the product of a [1, 256] row of ones with
  the squared block, which lands as a [1, 512] row and is broadcast down the tile's columns.  Since 1 * y = y for every
  extended real y, the tile's entry is the cosine similarity of row p of `xb` and row q of `sb`.
-/
import proofs.«173409_j67817533604081_1_alg».proof.Proof.Gen.KernelIdeal.Skeleton
import proofs.«173409_j67817533604081_1_alg».proof.Proof.LibColumns
import proofs.«173409_j67817533604081_1_alg».proof.Proof.CosineSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.TileValue

open Cert.KernelIdeal Cert.KernelIdeal.Gen Idealize.ShloMosaic Idealize.ShloMosaic.ValueIdx Cert.Cosine
open scoped BigOperators

/-! ## The two matrix products read at an entry -/

/-! The tile's numerator: [4096, 256] against [512, 256], both contracted along their second axis. -/

theorem lhs_qs_0 (i : S4096x512.Idx) (q : dot_S4096x256_S512x256_S4096x512_1_1_0_0_n_n.contr.Idx) :
    (dot_S4096x256_S512x256_S4096x512_1_1_0_0_n_n.lhsIdx i q 0).val = (i 0).val := by
  unfold DotDims.lhsIdx
  rw [dif_neg (show ¬(0 : Fin S4096x256.rank) ∈ dot_S4096x256_S512x256_S4096x512_1_1_0_0_n_n.lhsBatch by decide), dif_pos (show (0 : Fin S4096x256.rank) ∈ dot_S4096x256_S512x256_S4096x512_1_1_0_0_n_n.lhsNonContracting by decide)]
  rfl
theorem lhs_qs_1 (i : S4096x512.Idx) (q : dot_S4096x256_S512x256_S4096x512_1_1_0_0_n_n.contr.Idx) :
    (dot_S4096x256_S512x256_S4096x512_1_1_0_0_n_n.lhsIdx i q 1).val = (q ⟨0, by decide⟩).val :=
  dot_S4096x256_S512x256_S4096x512_1_1_0_0_n_n.lhsIdx_val_of_single rfl i q
theorem rhs_qs_0 (i : S4096x512.Idx) (q : dot_S4096x256_S512x256_S4096x512_1_1_0_0_n_n.contr.Idx) :
    (dot_S4096x256_S512x256_S4096x512_1_1_0_0_n_n.rhsIdx i q 0).val = (i 1).val := by
  unfold DotDims.rhsIdx
  rw [dif_neg (show ¬(0 : Fin S512x256.rank) ∈ dot_S4096x256_S512x256_S4096x512_1_1_0_0_n_n.rhsBatch by decide), dif_pos (show (0 : Fin S512x256.rank) ∈ dot_S4096x256_S512x256_S4096x512_1_1_0_0_n_n.rhsNonContracting by decide)]
  rfl
theorem rhs_qs_1 (i : S4096x512.Idx) (q : dot_S4096x256_S512x256_S4096x512_1_1_0_0_n_n.contr.Idx) :
    (dot_S4096x256_S512x256_S4096x512_1_1_0_0_n_n.rhsIdx i q 1).val = (q ⟨0, by decide⟩).val :=
  dot_S4096x256_S512x256_S4096x512_1_1_0_0_n_n.rhsIdx_val_of_single rfl i q

/-- The product into a zero accumulator, at entry (p, q): the sum over the 256 columns of row `p` of the left operand
    times row `q` of the right. -/
theorem dot_qs_apply {φ₁ φ₂ : FTy} (l : FVec Ideal S4096x256 φ₁) (r : FVec Ideal S512x256 φ₂) (p : Fin 4096) (q : Fin 512) :
    matmul dot_S4096x256_S512x256_S4096x512_1_1_0_0_n_n none l r (constant (F := Ideal) S4096x512 .f32 0x00000000#32) (ix2 p q)
      = ∑ k : Fin 256, l (ix2 p k) * r (ix2 q k) := by
  simp only [matmul]
  rw [Ideal.matmul_constant_zero_apply, ← Equiv.sum_comp (ValueIdx.contrEquiv1 dot_S4096x256_S512x256_S4096x512_1_1_0_0_n_n 256 rfl rfl).symm]
  refine Finset.sum_congr rfl fun k _ => ?_
  have hk := ValueIdx.contrEquiv1_symm_val dot_S4096x256_S512x256_S4096x512_1_1_0_0_n_n 256 rfl rfl k
  have el : dot_S4096x256_S512x256_S4096x512_1_1_0_0_n_n.lhsIdx (ix2 p q) ((ValueIdx.contrEquiv1 dot_S4096x256_S512x256_S4096x512_1_1_0_0_n_n 256 rfl rfl).symm k) = ix2 p k := funext fun a => Fin.ext (by
    match a with
    | ⟨0, _⟩ => exact lhs_qs_0 _ _
    | ⟨1, _⟩ => exact (lhs_qs_1 _ _).trans hk)
  have er : dot_S4096x256_S512x256_S4096x512_1_1_0_0_n_n.rhsIdx (ix2 p q) ((ValueIdx.contrEquiv1 dot_S4096x256_S512x256_S4096x512_1_1_0_0_n_n 256 rfl rfl).symm k) = ix2 q k := funext fun a => Fin.ext (by
    match a with
    | ⟨0, _⟩ => exact rhs_qs_0 _ _
    | ⟨1, _⟩ => exact (rhs_qs_1 _ _).trans hk)
  rw [el, er]

/-! The support norm's product: a [1, 256] row against [512, 256], again contracting the second axis of both. -/

theorem lhs_os_0 (i : S1x512.Idx) (q : dot_S1x256_S512x256_S1x512_1_1_0_0_n_n.contr.Idx) :
    (dot_S1x256_S512x256_S1x512_1_1_0_0_n_n.lhsIdx i q 0).val = (i 0).val := by
  unfold DotDims.lhsIdx
  rw [dif_neg (show ¬(0 : Fin S1x256.rank) ∈ dot_S1x256_S512x256_S1x512_1_1_0_0_n_n.lhsBatch by decide), dif_pos (show (0 : Fin S1x256.rank) ∈ dot_S1x256_S512x256_S1x512_1_1_0_0_n_n.lhsNonContracting by decide)]
  rfl
theorem lhs_os_1 (i : S1x512.Idx) (q : dot_S1x256_S512x256_S1x512_1_1_0_0_n_n.contr.Idx) :
    (dot_S1x256_S512x256_S1x512_1_1_0_0_n_n.lhsIdx i q 1).val = (q ⟨0, by decide⟩).val :=
  dot_S1x256_S512x256_S1x512_1_1_0_0_n_n.lhsIdx_val_of_single rfl i q
theorem rhs_os_0 (i : S1x512.Idx) (q : dot_S1x256_S512x256_S1x512_1_1_0_0_n_n.contr.Idx) :
    (dot_S1x256_S512x256_S1x512_1_1_0_0_n_n.rhsIdx i q 0).val = (i 1).val := by
  unfold DotDims.rhsIdx
  rw [dif_neg (show ¬(0 : Fin S512x256.rank) ∈ dot_S1x256_S512x256_S1x512_1_1_0_0_n_n.rhsBatch by decide), dif_pos (show (0 : Fin S512x256.rank) ∈ dot_S1x256_S512x256_S1x512_1_1_0_0_n_n.rhsNonContracting by decide)]
  rfl
theorem rhs_os_1 (i : S1x512.Idx) (q : dot_S1x256_S512x256_S1x512_1_1_0_0_n_n.contr.Idx) :
    (dot_S1x256_S512x256_S1x512_1_1_0_0_n_n.rhsIdx i q 1).val = (q ⟨0, by decide⟩).val :=
  dot_S1x256_S512x256_S1x512_1_1_0_0_n_n.rhsIdx_val_of_single rfl i q

/-- The product into a zero accumulator, at entry (0, q): the sum over the 256 columns of the left operand's one row
    times row `q` of the right. -/
theorem dot_os_apply {φ₁ φ₂ : FTy} (l : FVec Ideal S1x256 φ₁) (r : FVec Ideal S512x256 φ₂) (u : Fin 1) (q : Fin 512) :
    matmul dot_S1x256_S512x256_S1x512_1_1_0_0_n_n none l r (constant (F := Ideal) S1x512 .f32 0x00000000#32) (ix2 u q)
      = ∑ k : Fin 256, l (ix2 u k) * r (ix2 q k) := by
  simp only [matmul]
  rw [Ideal.matmul_constant_zero_apply, ← Equiv.sum_comp (ValueIdx.contrEquiv1 dot_S1x256_S512x256_S1x512_1_1_0_0_n_n 256 rfl rfl).symm]
  refine Finset.sum_congr rfl fun k _ => ?_
  have hk := ValueIdx.contrEquiv1_symm_val dot_S1x256_S512x256_S1x512_1_1_0_0_n_n 256 rfl rfl k
  have el : dot_S1x256_S512x256_S1x512_1_1_0_0_n_n.lhsIdx (ix2 u q) ((ValueIdx.contrEquiv1 dot_S1x256_S512x256_S1x512_1_1_0_0_n_n 256 rfl rfl).symm k) = ix2 u k := funext fun a => Fin.ext (by
    match a with
    | ⟨0, _⟩ => exact lhs_os_0 _ _
    | ⟨1, _⟩ => exact (lhs_os_1 _ _).trans hk)
  have er : dot_S1x256_S512x256_S1x512_1_1_0_0_n_n.rhsIdx (ix2 u q) ((ValueIdx.contrEquiv1 dot_S1x256_S512x256_S1x512_1_1_0_0_n_n 256 rfl rfl).symm k) = ix2 q k := funext fun a => Fin.ext (by
    match a with
    | ⟨0, _⟩ => exact rhs_os_0 _ _
    | ⟨1, _⟩ => exact (rhs_os_1 _ _).trans hk)
  rw [el, er]

/-! ## The three ingredients of an entry -/

/-- The numerator at (p, q) is the inner product of row `p` of the query block and row `q` of the support block: the
    change to the narrower format is the identity over the extended reals. -/
theorem numer_apply (xb : FVec Ideal S4096x256 .f32) (sb : FVec Ideal S512x256 .f32) (p : Fin 4096) (q : Fin 512) :
    matmul dot_S4096x256_S512x256_S4096x512_1_1_0_0_n_n none (truncf .bf16 xb bitsLt_bf16_f32) (truncf .bf16 sb bitsLt_bf16_f32)
        (constant (F := Ideal) S4096x512 .f32 0x00000000#32) (ix2 p q)
      = rowDot xb sb p q :=
  dot_qs_apply (truncf .bf16 xb bitsLt_bf16_f32) (truncf .bf16 sb bitsLt_bf16_f32) p q

/-- The query norm, kept as a column and broadcast along the tile's rows, at (p, q): the clamped norm of row `p`. -/
theorem qnorm_apply (xb : FVec Ideal S4096x256 .f32) (p : Fin 4096) (q : Fin 512) :
    broadcastTo S4096x512
        (maximumf (sqrt (shapeCast S4096x1 (multiReduction .add [1] S4096 (mulf xb xb) 0x00000000#32 reduces_S4096x256_S4096 (.inl rfl) rfl) shapeCasts_S4096_S4096x1))
          (broadcast S4096x1 (Scalar.ofBits (F := Ideal) .f32 0x322BCC77#32)))
        broadcasts_S4096x1_S4096x512 (ix2 p q)
      = rowNorm xb p := by
  refine (Cert.Columns.broadcastTo_a1_ab_apply _ broadcasts_S4096x1_S4096x512 p q).trans ?_
  show max (Ideal.sqrt (shapeCast S4096x1 (multiReduction .add [1] S4096 (mulf xb xb) 0x00000000#32 reduces_S4096x256_S4096 (.inl rfl) rfl) shapeCasts_S4096_S4096x1 (ix2 p (0 : Fin 1)))) eps = _
  rw [Cert.Columns.shapeCast_a_a1_apply _ shapeCasts_S4096_S4096x1 p 0,
    Cert.Columns.multiReduction_add_row (mulf xb xb) reduces_S4096x256_S4096 (.inl rfl) rfl p]
  rfl

/-- The word of the ones row denotes the extended real one. -/
theorem one_word : Ideal.ofBits .f32 0x3F800000#32 = 1 := IdealRules.sign_bit.ideal_onePat .f32

/-- The support norm, computed as a row and broadcast down the tile's columns, at (p, q): the clamped norm of row `q`
    (each summand carries a factor one). -/
theorem snorm_apply (sb : FVec Ideal S512x256 .f32) (p : Fin 4096) (q : Fin 512) :
    broadcastTo S4096x512
        (maximumf (sqrt (matmul dot_S1x256_S512x256_S1x512_1_1_0_0_n_n none (broadcast S1x256 (Scalar.ofBits (F := Ideal) .f32 0x3F800000#32)) (mulf sb sb)
            (constant (F := Ideal) S1x512 .f32 0x00000000#32)))
          (broadcast S1x512 (Scalar.ofBits (F := Ideal) .f32 0x322BCC77#32)))
        broadcasts_S1x512_S4096x512 (ix2 p q)
      = rowNorm sb q := by
  refine (broadcastTo_1b_ab_apply _ broadcasts_S1x512_S4096x512 p q).trans ?_
  show max (Ideal.sqrt (matmul dot_S1x256_S512x256_S1x512_1_1_0_0_n_n none (broadcast S1x256 (Scalar.ofBits (F := Ideal) .f32 0x3F800000#32)) (mulf sb sb)
      (constant (F := Ideal) S1x512 .f32 0x00000000#32) (ix2 (0 : Fin 1) q))) eps = _
  rw [dot_os_apply]
  unfold rowNorm rowDot
  refine congrArg (fun y => max (Ideal.sqrt y) eps) (Finset.sum_congr rfl fun k _ => ?_)
  show Ideal.ofBits .f32 0x3F800000#32 * (sb (ix2 q k) * sb (ix2 q k)) = _
  rw [one_word, one_mul]

/-! ## The tile -/

/-- Entry (p, q) of the stored tile is the cosine similarity of row `p` of the query block and row `q` of the support
    block. -/
theorem tile_apply (xb : Vec Ideal S4096x256 .f32) (sb : Vec Ideal S512x256 .f32) (p : Fin 4096) (q : Fin 512) :
    k0_pay1 (F := Ideal) xb sb (ix2 p q) = cosAt xb sb p q := by
  unfold k0_pay1 cosAt
  exact congrArg₂ Ideal.div (numer_apply xb sb p q) (congrArg₂ (· * ·) (qnorm_apply xb p q) (snorm_apply sb p q))

end Cert.KernelIdeal.TileValue

end
-- ==== Proof.ArrayValue.lean ====
/-
  The kernel's whole result array.

  The grid has 2 x 8 points.  Point (i, j) reads query rows 4096 i .. 4096 i + 4095 and support rows 512 j .. 512 j + 511
  (all 256 columns of each), and writes back the [4096, 512] tile whose corner is (4096 i, 512 j).  A tile's entry is the
  cosine similarity of one row of each block it read (the tile module), and a similarity reads only those two rows, so
  the tile written at (i, j) is the restriction of the ONE array `cosSim x s` of the two argument arrays to that
  rectangle.  The sixteen rectangles cover [8192, 4096]: entry (r, c) lies in the tile of point (r / 4096, c / 512).
  Hence the result array after the run is `cosSim x s`.
-/
import proofs.«173409_j67817533604081_1_alg».proof.Proof.Gen.KernelIdeal.Value
import proofs.«173409_j67817533604081_1_alg».proof.Proof.TileValue

noncomputable section

namespace Cert.KernelIdeal.ArrayValue

open Cert.KernelIdeal Cert.KernelIdeal.Gen Idealize.ShloMosaic Idealize.ShloMosaic.TcCoe Idealize.SL.Sem
open Idealize.ShloMosaic.ValueIdx Cert.Cosine
open Idealize.ShloMosaic.Pipeline (Dat)

variable (m : (ℓ : Loc nD τ sig) → Buf (Elt Ideal) ℓ) (ρ : Dev nD → PrngReg)

theorem corner_zero : (![0, 0] : Fin 2 → Nat) = fun _ => 0 := funext fun a => by fin_cases a <;> rfl

/-- The three index maps over the sixteen grid points: the query window's row-block is the result's row-block, the
    support window's row-block is the result's column-block, neither input is split along its columns, and the result's
    block indices range over 2 x 8. -/
theorem block_indices : ∀ t : Fin cfg0.N,
    win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 1
    ∧ win0_2.index t (1 : Fin 2) ≤ 7 :=
  (by decide +kernel : ∀ t : Fin grid0.N, _)

/-- Every one of the 2 x 8 result blocks is some point's. -/
theorem block_onto : ∀ (q0 : Fin 2) (q1 : Fin 8), ∃ t : Fin cfg0.N, win0_2.index t = ![q0.val, q1.val] :=
  (by decide +kernel : ∀ (q0 : Fin 2) (q1 : Fin 8), ∃ t : Fin grid0.N, win0_2.index t = ![q0.val, q1.val])

/-! ## A tile as a restriction of the whole array -/

/-- A stored tile, computed from a block of query rows starting at row `4096 * i0` and a block of support rows starting
    at row `512 * j0`, is `cosSim X S` read through any embedding `e` of the tile that puts its corner at
    `(4096 * i0, 512 * j0)`. -/
theorem tile_eq_restrict (xb : Vec Ideal S4096x256 .f32) (sb : Vec Ideal S512x256 .f32)
    (X : Vec Ideal S8192x256 .f32) (S : Vec Ideal S4096x256 .f32) (i0 j0 : ℕ) (e : S4096x512.Idx → S8192x4096.Idx)
    (he0 : ∀ y : S4096x512.Idx, (e y 0).val = i0 * 4096 + (y 0).val)
    (he1 : ∀ y : S4096x512.Idx, (e y 1).val = j0 * 512 + (y 1).val)
    (hx : ∀ (p : Fin 4096) (k : Fin 256) (r : Fin 8192), r.val = i0 * 4096 + p.val → xb (ix2 p k) = X (ix2 r k))
    (hs : ∀ (q : Fin 512) (k : Fin 256) (r : Fin 4096), r.val = j0 * 512 + q.val → sb (ix2 q k) = S (ix2 r k)) :
    k0_pay1 (F := Ideal) xb sb = fun y => cosSim X S (e y) := by
  funext y
  obtain ⟨p, q, rfl⟩ : ∃ (p : Fin 4096) (q : Fin 512), y = ix2 p q := ⟨y 0, y 1, eq_ix2 y⟩
  rw [TileValue.tile_apply]
  show cosAt xb sb p q = cosAt X S (e (ix2 p q) 0) (e (ix2 p q) 1)
  exact cosAt_congr xb sb X S p q (e (ix2 p q) 0) (e (ix2 p q) 1)
    (fun k => hx p k (e (ix2 p q) 0) (he0 (ix2 p q))) (fun k => hs q k (e (ix2 p q) 1) (he1 (ix2 p q)))

/-- Row `p` of the query block at point `t` is row `4096 * (the result's row-block) + p` of the query array. -/
theorem query_block_row (c : Dev nD) (t : Fin cfg0.N) (p : Fin 4096) (k : Fin 256) (r : Fin 8192)
    (hr : r.val = win0_2.index t (0 : Fin 2) * 4096 + p.val) :
    iblk m c 0 t (ix2 p k) = V m c main_arg0 (ix2 r k) := by
  obtain ⟨e0, e1, e2, e3, e4, e5⟩ := block_indices t
  show V m c main_arg0 (((cfg0.win 0).blk t).view.emb (ix2 p k)) = V m c main_arg0 (ix2 r k)
  refine congrArg (V m c main_arg0) (funext fun a => Fin.ext ?_)
  match a with
  | ⟨0, _⟩ => show win0_0.index t (0 : Fin 2) * 4096 + 1 * p.val = r.val; omega
  | ⟨1, _⟩ => show win0_0.index t (1 : Fin 2) * 256 + 1 * k.val = k.val; omega

/-- Row `q` of the support block at point `t` is row `512 * (the result's column-block) + q` of the support array. -/
theorem support_block_row (c : Dev nD) (t : Fin cfg0.N) (q : Fin 512) (k : Fin 256) (r : Fin 4096)
    (hr : r.val = win0_2.index t (1 : Fin 2) * 512 + q.val) :
    iblk m c 1 t (ix2 q k) = V m c main_arg1 (ix2 r k) := by
  obtain ⟨e0, e1, e2, e3, e4, e5⟩ := block_indices t
  show V m c main_arg1 (((cfg0.win 1).blk t).view.emb (ix2 q k)) = V m c main_arg1 (ix2 r k)
  refine congrArg (V m c main_arg1) (funext fun a => Fin.ext ?_)
  match a with
  | ⟨0, _⟩ => show win0_1.index t (0 : Fin 2) * 512 + 1 * q.val = r.val; omega
  | ⟨1, _⟩ => show win0_1.index t (1 : Fin 2) * 256 + 1 * k.val = k.val; omega

/-- What point `t` writes back is block `t` of `cosSim` of the two argument arrays. -/
theorem flushed_eq (c : Dev nD) (t : Fin cfg0.N) :
    (dats m 0 c).flushed 2 t
      = ((cfg0.win 2).blk t).view.read (Elt Ideal) (cosSim (V m c main_arg0) (V m c main_arg1)) := by
  rw [Value.flushed2]
  unfold out0_2
  rw [View.canon_unit_zero corner_zero]
  simp only [View.ld_unit_zero (S := S4096x256) corner_zero, View.ld_unit_zero (S := S512x256) corner_zero]
  funext j
  show k0_pay1 (F := Ideal) (iblk m c 0 t) (iblk m c 1 t) j
    = cosSim (V m c main_arg0) (V m c main_arg1) (((cfg0.win 2).blk t).view.emb j)
  exact congrFun (tile_eq_restrict (iblk m c 0 t) (iblk m c 1 t) (V m c main_arg0) (V m c main_arg1)
    (win0_2.index t (0 : Fin 2)) (win0_2.index t (1 : Fin 2)) (((cfg0.win 2).blk t).view.emb)
    (fun y => by show win0_2.index t (0 : Fin 2) * 4096 + 1 * (y 0).val = _; omega)
    (fun y => by show win0_2.index t (1 : Fin 2) * 512 + 1 * (y 1).val = _; omega)
    (fun p k r hr => query_block_row m c t p k r hr)
    (fun q k r hr => support_block_row m c t q k r hr)) j

/-! ## The tiles cover the array -/

/-- An entry is in point `t`'s rectangle iff each coordinate is in the block's range on its axis. -/
theorem mem_block (t : Fin cfg0.N) (i : S8192x4096.Idx) :
    i ∈ ((cfg0.win 2).blk t).view.set ↔ ∀ a : Fin 2, win0_2.index t a * S4096x512.size a ≤ (i a).val ∧ (i a).val < win0_2.index t a * S4096x512.size a + S4096x512.size a := by
  show i ∈ ((View.whole main_v0).slice (win0_2.rect t)).set ↔ _
  rw [View.set_slice_whole, Rect.mem_set_unit]
  exact Iff.rfl

/-- Entry (r, c) is in the rectangle of the point whose block is (r / 4096, c / 512), and that point writes back. -/
theorem covered (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  obtain ⟨t, ht⟩ := block_onto ⟨(i 0).val / 4096, by omega⟩ ⟨(i 1).val / 512, by omega⟩
  have q0 : win0_2.index t (0 : Fin 2) = (i 0).val / 4096 := congrFun ht 0
  have q1 : win0_2.index t (1 : Fin 2) = (i 1).val / 512 := congrFun ht 1
  refine ⟨t, flush0_2 t, ?_⟩
  rw [mem_block]
  intro a
  match a with
  | ⟨0, _⟩ => show win0_2.index t (0 : Fin 2) * 4096 ≤ (i 0).val ∧ (i 0).val < win0_2.index t (0 : Fin 2) * 4096 + 4096; omega
  | ⟨1, _⟩ => show win0_2.index t (1 : Fin 2) * 512 ≤ (i 1).val ∧ (i 1).val < win0_2.index t (1 : Fin 2) * 512 + 512; omega

/-! ## The array after the run -/

/-- The result array after the run is the cosine similarity of the two argument arrays, entry by entry. -/
theorem final (c : Dev nD) :
    (dats m 0 c).arrAt 2 cfg0.N = cosSim (m ((c : Thread nD τ).loc main_arg0)) (m ((c : Thread nD τ).loc main_arg1)) :=
  (dats m 0 c).arrAt_eq_of_cover 2 (cosSim (V m c main_arg0) (V m c main_arg1)) (fun t _ => flushed_eq m c t) covered

/-- Every weakly fair execution of the kernel's program ends with the result array at `cosSim` of the arguments and the
    arguments as they were. -/
theorem run : θ_run defs (onTc (τ := τ) (main (F := Ideal))) ⟨m, fun _ => 0, ρ⟩ fun r => ∀ c : Dev nD,
      r.2.mem ((c : Thread nD τ).loc main_v0) = cosSim (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.ArrayValue

end
-- ==== Proof.RefValue.lean ====
/-
  The reference program's result, entry by entry.

  The reference squares each argument array entrywise, sums each row from zero, takes the square root and clamps it from
  below by eps: two vectors of clamped row norms, one entry per query row and one per support row.  It forms all inner
  products of a query row with a support row in one contraction, lays the query norms out along the rows and the support
  norms along the columns of an [8192, 4096] array, multiplies the two layouts and divides the inner products by the
  product.  Read at entry (p, q) that is the cosine similarity of query row p and support row q.
-/
import proofs.«173409_j67817533604081_1_alg».proof.Proof.Gen.ReferenceIdeal.Read
import proofs.«173409_j67817533604081_1_alg».proof.Proof.CosineSpec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Cert.Cosine
open scoped BigOperators

/-- The sum of squares of query row `p`, started from the zero word. -/
theorem query_sumsq (x0 : (⟨S8192x256, .f32⟩ : BufTy).Contents (Elt Ideal)) (p : Fin 8192) :
    val_main_call0_v1 (F := Ideal) x0 (ix1 p) = rowDot x0 x0 p p := by
  rw [val_main_call0_v1_apply]
  show Ideal.ofBits .f32 0x00000000#32 + _ = _
  rw [Ideal.ofBits_zero_f32, zero_add]
  unfold rowDot
  refine Finset.sum_congr rfl fun k _ => ?_
  have e : idx_main_call0_v1 (ix1 p) k = ix2 p k :=
    funext fun a => Fin.ext (by match a with | ⟨0, _⟩ => rfl | ⟨1, _⟩ => rfl)
  rw [e]
  rfl

/-- The sum of squares of support row `q`, started from the zero word. -/
theorem support_sumsq (x1 : (⟨S4096x256, .f32⟩ : BufTy).Contents (Elt Ideal)) (q : Fin 4096) :
    val_main_call1_v1 (F := Ideal) x1 (ix1 q) = rowDot x1 x1 q q := by
  rw [val_main_call1_v1_apply]
  show Ideal.ofBits .f32 0x00000000#32 + _ = _
  rw [Ideal.ofBits_zero_f32, zero_add]
  unfold rowDot
  refine Finset.sum_congr rfl fun k _ => ?_
  have e : idx_main_call1_v1 (ix1 q) k = ix2 q k :=
    funext fun a => Fin.ext (by match a with | ⟨0, _⟩ => rfl | ⟨1, _⟩ => rfl)
  rw [e]
  rfl

/-- The vector of clamped query norms at `p`. -/
theorem query_norm (x0 : (⟨S8192x256, .f32⟩ : BufTy).Contents (Elt Ideal)) (p : Fin 8192) :
    val_main_v2 (F := Ideal) x0 (ix1 p) = rowNorm x0 p := by
  rw [val_main_v2_apply, val_main_v0_apply, val_main_v1_apply, val_main_cst_apply, query_sumsq]
  rfl

/-- The vector of clamped support norms at `q`. -/
theorem support_norm (x1 : (⟨S4096x256, .f32⟩ : BufTy).Contents (Elt Ideal)) (q : Fin 4096) :
    val_main_v5 (F := Ideal) x1 (ix1 q) = rowNorm x1 q := by
  rw [val_main_v5_apply, val_main_v3_apply, val_main_v4_apply, val_main_cst_0_apply, support_sumsq]
  rfl

/-- The query norms laid out along the rows of the result's shape: entry (p, q) is the norm of query row `p`. -/
theorem query_norm_layout (x0 : (⟨S8192x256, .f32⟩ : BufTy).Contents (Elt Ideal)) (p : Fin 8192) (q : Fin 4096) :
    val_main_v9 (F := Ideal) x0 (ix2 p q) = rowNorm x0 p := by
  have e : idx_main_v7 (idx_main_v9 (ix2 p q)) = ix1 p :=
    funext fun a => Fin.ext (by match a with | ⟨0, _⟩ => rfl)
  rw [val_main_v9_apply, val_main_v7_apply, e, query_norm]

/-- The support norms laid out along the columns: entry (p, q) is the norm of support row `q`. -/
theorem support_norm_layout (x1 : (⟨S4096x256, .f32⟩ : BufTy).Contents (Elt Ideal)) (p : Fin 8192) (q : Fin 4096) :
    val_main_v10 (F := Ideal) x1 (ix2 p q) = rowNorm x1 q := by
  have e : idx_main_v8 (idx_main_v10 (ix2 p q)) = ix1 q :=
    funext fun a => Fin.ext (by match a with | ⟨0, _⟩ => rfl)
  rw [val_main_v10_apply, val_main_v8_apply, e, support_norm]

/-- The contraction at (p, q): the inner product of query row `p` and support row `q`. -/
theorem inner_products (x0 : (⟨S8192x256, .f32⟩ : BufTy).Contents (Elt Ideal)) (x1 : (⟨S4096x256, .f32⟩ : BufTy).Contents (Elt Ideal))
    (p : Fin 8192) (q : Fin 4096) : val_main_v6 (F := Ideal) x0 x1 (ix2 p q) = rowDot x0 x1 p q := by
  rw [val_main_v6_apply]
  unfold rowDot
  refine Finset.sum_congr rfl fun k _ => ?_
  have el : lidx_main_v6 (ix2 p q) k = ix2 p k :=
    funext fun a => Fin.ext (by match a with | ⟨0, _⟩ => rfl | ⟨1, _⟩ => rfl)
  have er : ridx_main_v6 (ix2 p q) k = ix2 q k :=
    funext fun a => Fin.ext (by match a with | ⟨0, _⟩ => rfl | ⟨1, _⟩ => rfl)
  rw [el, er]

/-- The reference's last stage is the cosine similarity of its two arguments, entry by entry. -/
theorem result_eq (x0 : (⟨S8192x256, .f32⟩ : BufTy).Contents (Elt Ideal)) (x1 : (⟨S4096x256, .f32⟩ : BufTy).Contents (Elt Ideal)) :
    val_main_v12 (F := Ideal) x0 x1 = cosSim x0 x1 := by
  funext i
  obtain ⟨p, q, rfl⟩ : ∃ (p : Fin 8192) (q : Fin 4096), i = ix2 p q := ⟨i 0, i 1, eq_ix2 i⟩
  rw [val_main_v12_apply, val_main_v11_apply, inner_products, query_norm_layout, support_norm_layout]
  rfl

end Cert.ReferenceIdeal.RefValue

end
-- ==== Proof.lean ====
/-
  Cosine similarity of every query row with every support row: a tiled kernel against a whole-array computation.

  Both programs produce, for x of shape [8192, 256] and s of shape [4096, 256], the [8192, 4096] array whose entry (r, c)
  is  <x_r, s_c> / ( max(sqrt <x_r, x_r>, eps) * max(sqrt <s_c, s_c>, eps) )  (`Cert.Cosine.cosSim`).

  The kernel works tile by tile on a 2 x 8 grid.  Over the extended reals its tile entry is that same expression of one
  row of each block it loaded: passing the product's operands through a narrower format is the identity, the support
  norm's sum carries a factor one in each term, and the accumulators start at zero.  An entry reads only its two rows, so
  each tile is the restriction of `cosSim x s` to its rectangle, and the sixteen rectangles cover the array.  The
  reference computes the two norm vectors and all inner products at once and divides; read at an entry it is `cosSim x s`
  as well.  Only commutative sums and the unit law of multiplication are used, which hold at the infinities too, so the
  equality needs nothing of the inputs beyond the two runs starting from the same arrays.

  The three frames are the generated runs; no rewrite separates the kernel from its idealization.
-/
import proofs.«173409_j67817533604081_1_alg».proof.Defs
import proofs.«173409_j67817533604081_1_alg».proof.Proof.Gen.Kernel
import proofs.«173409_j67817533604081_1_alg».proof.Proof.Gen.Kernel.Skeleton
import proofs.«173409_j67817533604081_1_alg».proof.Proof.Gen.Kernel.Launch
import proofs.«173409_j67817533604081_1_alg».proof.Proof.Gen.Kernel.Points
import proofs.«173409_j67817533604081_1_alg».proof.Proof.Gen.Kernel.Frame
import proofs.«173409_j67817533604081_1_alg».proof.Proof.Gen.KernelIdeal
import proofs.«173409_j67817533604081_1_alg».proof.Proof.Gen.KernelIdeal.Skeleton
import proofs.«173409_j67817533604081_1_alg».proof.Proof.Gen.KernelIdeal.Launch
import proofs.«173409_j67817533604081_1_alg».proof.Proof.Gen.KernelIdeal.Points
import proofs.«173409_j67817533604081_1_alg».proof.Proof.Gen.KernelIdeal.Frame
import proofs.«173409_j67817533604081_1_alg».proof.Proof.Gen.ReferenceIdeal
import proofs.«173409_j67817533604081_1_alg».proof.Proof.Gen.Pre_finite_inputs
import proofs.«173409_j67817533604081_1_alg».proof.Proof.Gen.KernelIdeal.Value
import proofs.«173409_j67817533604081_1_alg».proof.Proof.Gen.ReferenceIdeal.Run
import proofs.«173409_j67817533604081_1_alg».proof.Proof.Gen.ReferenceIdeal.Read
import Idealize.ShloMosaic.Adequacy
import Idealize.ShloMosaic.Init

import proofs.«173409_j67817533604081_1_alg».proof.Proof.ArrayValue
import proofs.«173409_j67817533604081_1_alg».proof.Proof.RefValue

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference's run, its result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation was rewritten between the kernel and its reading over the extended reals. -/
theorem preserves : Cert.preserves_Kernel_KernelIdeal := trivial

/-- From the same argument arrays, the kernel's result array and the reference's both end at the cosine similarity of
    the arguments, entry by entry. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v12_eq _ _).trans (Cert.ReferenceIdeal.RefValue.result_eq _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
